-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1408x256 : Shape := ⟨2, ![1408, 256]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S_ : Shape := ⟨0, ![]⟩

class Facts : Prop where
  bcast_S_S1408x256 : S_.BroadcastsInDim S1408x256 (![] : Fin 0 → Fin S1408x256.rank)
  reducesTo_S1408x256_S_d0_1 : S1408x256.ReducesTo [0, 1] S_
  h_S_ : 0 < S_.numel
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S10x128 : S_.BroadcastsInDim S10x128 (![] : Fin 0 → Fin S10x128.rank)
  reducesTo_S10x128_S_d0_1 : S10x128.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S128 .f32) (main_arg5 : FVec F S10x128 .f32) (main_arg6 : FVec F S10 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S10x128 .f32 := Host.absf main_arg5
  let main_cst_8 : FVec F S_ .f32 := constant S_ .f32 0x7F800000#32
  let main_v25 : FVec F S10x128 .f32 := broadcastInDim S10x128 ![] bcast_S_S10x128 main_cst_8
  let main_v26 : IVec S10x128 1 := cmpf .olt main_v24 main_v25
  let main_c_9 : IVec S_ 1 := constantI S_ 1 1#1
  let main_v27 : IVec S_ 1 := (fun x v => Host.reduce IntOp.andi x v reducesTo_S10x128_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S1408x256 .f32) (main_arg1 : FVec F S256 .f32) (main_arg2 : FVec F S256 .f32) (main_arg3 : FVec F S128x256 .f32) (main_arg4 : FVec F S128 .f32) (main_arg5 : FVec F S10x128 .f32) (main_arg6 : FVec F S10 .f32) : IVec S_ 1 :=
  let main_v0 : FVec F S1408x256 .f32 := Host.absf main_arg0
  let main_cst : FVec F S_ .f32 := constant S_ .f32 0x7F800000#32
  let main_v1 : FVec F S1408x256 .f32 := broadcastInDim S1408x256 ![] bcast_S_S1408x256 main_cst
  let main_v2 : IVec S1408x256 1 := cmpf .olt main_v0 main_v1
  let main_c : IVec S_ 1 := constantI S_ 1 1#1
  let main_v3 : IVec S_ 1 := (fun x v => Host.reduce IntOp.andi x v reducesTo_S1408x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_v13 main_v16
-- ==== Kernel.lean ====
abbrev S1408x256 : Shape := ⟨2, ![1408, 256]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S1408x10 : Shape := ⟨2, ![1408, 10]⟩
abbrev S128x10 : Shape := ⟨2, ![128, 10]⟩
abbrev S128x1 : Shape := ⟨2, ![128, 1]⟩
abbrev S1x256 : Shape := ⟨2, ![1, 256]⟩
abbrev S256x128 : Shape := ⟨2, ![256, 128]⟩
abbrev S128x128 : Shape := ⟨2, ![128, 128]⟩
abbrev S1x128 : Shape := ⟨2, ![1, 128]⟩
abbrev S1x10 : Shape := ⟨2, ![1, 10]⟩
abbrev S32x4x11x10 : Shape := ⟨4, ![32, 4, 11, 10]⟩

abbrev nBuf : Space → Nat
  | .hbm => 9
  | .vmem => 10
  | .smem => 0
  | _ => 0

abbrev bufTy : (tb : Table) → Fin (tcTables nBuf tb) → BufTy
  | .hbm, ⟨0, _⟩ => ⟨S1408x256, .f32⟩
  | .hbm, ⟨1, _⟩ => ⟨S256, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S10x128, .f32⟩
  | .hbm, ⟨6, _⟩ => ⟨S10, .f32⟩
  | .hbm, ⟨7, _⟩ => ⟨S1408x10, .f32⟩
  | .hbm, ⟨8, _⟩ => ⟨S32x4x11x10, .f32⟩
  | .local _ .vmem, ⟨0, _⟩ => ⟨S128x256, .f32⟩
  | .local _ .vmem, ⟨1, _⟩ => ⟨S128x256, .f32⟩
  | .local _ .vmem, ⟨2, _⟩ => ⟨S256, .f32⟩
  | .local _ .vmem, ⟨3, _⟩ => ⟨S256, .f32⟩
  | .local _ .vmem, ⟨4, _⟩ => ⟨S128x256, .f32⟩
  | .local _ .vmem, ⟨5, _⟩ => ⟨S128, .f32⟩
  | .local _ .vmem, ⟨6, _⟩ => ⟨S10x128, .f32⟩
  | .local _ .vmem, ⟨7, _⟩ => ⟨S10, .f32⟩
  | .local _ .vmem, ⟨8, _⟩ => ⟨S128x10, .f32⟩
  | .local _ .vmem, ⟨9, _⟩ => ⟨S128x10, .f32⟩
  | _, _ => ⟨S1408x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S128x256_S128x256_0_0 : ∀ a, (![0, 0] : Fin 2 → Nat) a + S128x256.size a ≤ S128x256.size a
  h_S128x256 : 0 < S128x256.numel
  reduces_S128x256_S128 : S128x256.Reduces [1] S128
  shapeCasts_S128_S128x1 : S128.ShapeCasts S128x1
  broadcasts_S128x1_S128x256 : S128x1.Broadcasts S128x256
  inb_S256_S256_0 : ∀ a, (![0] : Fin 1 → Nat) a + S256.size a ≤ S256.size a
  h_S256 : 0 < S256.numel
  shapeCasts_S256_S1x256 : S256.ShapeCasts S1x256
  broadcasts_S1x256_S128x256 : S1x256.Broadcasts S128x256
  bitsLt_bf16_f32 : FTy.bits .bf16 < FTy.bits .f32
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S10x128_S10x128_0_0 : ∀ a, (![0, 0] : Fin 2 → Nat) a + S10x128.size a ≤ S10x128.size a
  h_S10x128 : 0 < S10x128.numel
  transposes_S10x128_p1_0_S128x10 : S10x128.Transposes [1, 0] S128x10
  inb_S10_S10_0 : ∀ a, (![0] : Fin 1 → Nat) a + S10.size a ≤ S10.size a
  h_S10 : 0 < S10.numel
  shapeCasts_S10_S1x10 : S10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  shapeCasts_S1408x10_S32x4x11x10 : S1408x10.ShapeCasts S32x4x11x10
  dot_S128x256_S256x128_S128x128_1_0_0_1_n_n_wf : DotDims.WF S128x256 S256x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S1408x256.size a
  hwx0_0 : ∀ i : grid0.Coords, EltTy.bits .f32 = 32 ∨ (Rect.block (s := S1408x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x128.size a ≤ S10x128.size a
  hwx0_5 : ∀ i : grid0.Coords, EltTy.bits .f32 = 32 ∨ (Rect.block (s := S10x128) S10x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S10.size a ≤ S10.size a
  hwx0_6 : ∀ i : grid0.Coords, EltTy.bits .f32 = 32 ∨ (Rect.block (s := S10) S10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x10.size a ≤ S1408x10.size a
  hwx0_7 : ∀ i : grid0.Coords, EltTy.bits .f32 = 32 ∨ (Rect.block (s := S1408x10) S128x10.size (cc0_transform_7 i) (hinb0_7 i)).WholeWords (EltTy.packing .f32)

variable [Facts₀]

def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S128x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1408x256 : Shape := ⟨2, ![1408, 256]⟩
abbrev S256 : Shape := ⟨1, ![256]⟩
abbrev S128x256 : Shape := ⟨2, ![128, 256]⟩
abbrev S128 : Shape := ⟨1, ![128]⟩
abbrev S10x128 : Shape := ⟨2, ![10, 128]⟩
abbrev S10 : Shape := ⟨1, ![10]⟩
abbrev S32x4x11x256 : Shape := ⟨4, ![32, 4, 11, 256]⟩
abbrev S_ : Shape := ⟨0, ![]⟩
abbrev S32x4x11 : Shape := ⟨3, ![32, 4, 11]⟩
abbrev S32x4x11x1 : Shape := ⟨4, ![32, 4, 11, 1]⟩
abbrev S1x1x1x256 : Shape := ⟨4, ![1, 1, 1, 256]⟩
abbrev S32x4x11x128 : Shape := ⟨4, ![32, 4, 11, 128]⟩
abbrev S1x1x1x128 : Shape := ⟨4, ![1, 1, 1, 128]⟩
abbrev S32x4x11x10 : Shape := ⟨4, ![32, 4, 11, 10]⟩
abbrev S1x1x1x10 : Shape := ⟨4, ![1, 1, 1, 10]⟩

abbrev nBuf : Space → Nat
  | .hbm => 53
  | .vmem => 0
  | .smem => 0
  | _ => 0

abbrev bufTy : (tb : Table) → Fin (tcTables nBuf tb) → BufTy
  | .hbm, ⟨0, _⟩ => ⟨S1408x256, .f32⟩
  | .hbm, ⟨1, _⟩ => ⟨S256, .f32⟩
  | .hbm, ⟨2, _⟩ => ⟨S256, .f32⟩
  | .hbm, ⟨3, _⟩ => ⟨S128x256, .f32⟩
  | .hbm, ⟨4, _⟩ => ⟨S128, .f32⟩
  | .hbm, ⟨5, _⟩ => ⟨S10x128, .f32⟩
  | .hbm, ⟨6, _⟩ => ⟨S10, .f32⟩
  | .hbm, ⟨7, _⟩ => ⟨S32x4x11x256, .f32⟩
  | .hbm, ⟨8, _⟩ => ⟨S_, .f32⟩
  | .hbm, ⟨9, _⟩ => ⟨S32x4x11, .f32⟩
  | .hbm, ⟨10, _⟩ => ⟨S32x4x11x1, .f32⟩
  | .hbm, ⟨11, _⟩ => ⟨S_, .f32⟩
  | .hbm, ⟨12, _⟩ => ⟨S32x4x11x1, .f32⟩
  | .hbm, ⟨13, _⟩ => ⟨S32x4x11x1, .f32⟩
  | .hbm, ⟨14, _⟩ => ⟨S32x4x11x256, .f32⟩
  | .hbm, ⟨15, _⟩ => ⟨S32x4x11x256, .f32⟩
  | .hbm, ⟨16, _⟩ => ⟨S32x4x11x256, .f32⟩
  | .hbm, ⟨17, _⟩ => ⟨S_, .f32⟩
  | .hbm, ⟨18, _⟩ => ⟨S32x4x11, .f32⟩
  | .hbm, ⟨19, _⟩ => ⟨S32x4x11x1, .f32⟩
  | .hbm, ⟨20, _⟩ => ⟨S_, .f32⟩
  | .hbm, ⟨21, _⟩ => ⟨S32x4x11x1, .f32⟩
  | .hbm, ⟨22, _⟩ => ⟨S32x4x11x1, .f32⟩
  | .hbm, ⟨23, _⟩ => ⟨S32x4x11x256, .f32⟩
  | .hbm, ⟨24, _⟩ => ⟨S32x4x11x256, .f32⟩
  | .hbm, ⟨25, _⟩ => ⟨S_, .f32⟩
  | .hbm, ⟨26, _⟩ => ⟨S32x4x11x1, .f32⟩
  | .hbm, ⟨27, _⟩ => ⟨S32x4x11x1, .f32⟩
  | .hbm, ⟨28, _⟩ => ⟨S32x4x11x1, .f32⟩
  | .hbm, ⟨29, _⟩ => ⟨S32x4x11x256, .f32⟩
  | .hbm, ⟨30, _⟩ => ⟨S32x4x11x256, .f32⟩
  | .hbm, ⟨31, _⟩ => ⟨S1x1x1x256, .f32⟩
  | .hbm, ⟨32, _⟩ => ⟨S32x4x11x256, .f32⟩
  | .hbm, ⟨33, _⟩ => ⟨S32x4x11x256, .f32⟩
  | .hbm, ⟨34, _⟩ => ⟨S1x1x1x256, .f32⟩
  | .hbm, ⟨35, _⟩ => ⟨S32x4x11x256, .f32⟩
  | .hbm, ⟨36, _⟩ => ⟨S32x4x11x256, .f32⟩
  | .hbm, ⟨37, _⟩ => ⟨S32x4x11x128, .f32⟩
  | .hbm, ⟨38, _⟩ => ⟨S1x1x1x128, .f32⟩
  | .hbm, ⟨39, _⟩ => ⟨S32x4x11x128, .f32⟩
  | .hbm, ⟨40, _⟩ => ⟨S32x4x11x128, .f32⟩
  | .hbm, ⟨41, _⟩ => ⟨S32x4x11x128, .f32⟩
  | .hbm, ⟨42, _⟩ => ⟨S32x4x11x128, .f32⟩
  | .hbm, ⟨43, _⟩ => ⟨S_, .f32⟩
  | .hbm, ⟨44, _⟩ => ⟨S32x4x11x128, .f32⟩
  | .hbm, ⟨45, _⟩ => ⟨S32x4x11x128, .f32⟩
  | .hbm, ⟨46, _⟩ => ⟨S_, .f32⟩
  | .hbm, ⟨47, _⟩ => ⟨S32x4x11x128, .f32⟩
  | .hbm, ⟨48, _⟩ => ⟨S32x4x11x128, .f32⟩
  | .hbm, ⟨49, _⟩ => ⟨S32x4x11x10, .f32⟩
  | .hbm, ⟨50, _⟩ => ⟨S1x1x1x10, .f32⟩
  | .hbm, ⟨51, _⟩ => ⟨S32x4x11x10, .f32⟩
  | .hbm, ⟨52, _⟩ => ⟨S32x4x11x10, .f32⟩
  | _, _ => ⟨S1408x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  shapeCasts_S1408x256_S32x4x11x256 : S1408x256.ShapeCasts S32x4x11x256
  reducesTo_S32x4x11x256_S32x4x11_d3 : S32x4x11x256.ReducesTo [3] S32x4x11
  h_S_ : 0 < S_.numel
  bcast_S32x4x11_S32x4x11x1_0_1_2 : S32x4x11.BroadcastsInDim S32x4x11x1 (![0, 1, 2] : Fin 3 → Fin S32x4x11x1.rank)
  bcast_S_S32x4x11x1 : S_.BroadcastsInDim S32x4x11x1 (![] : Fin 0 → Fin S32x4x11x1.rank)
  bcast_S32x4x11x1_S32x4x11x256_0_1_2_3 : S32x4x11x1.BroadcastsInDim S32x4x11x256 (![0, 1, 2, 3] : Fin 4 → Fin S32x4x11x256.rank)
  bcast_S256_S1x1x1x256_3 : S256.BroadcastsInDim S1x1x1x256 (![3] : Fin 1 → Fin S1x1x1x256.rank)
  bcast_S1x1x1x256_S32x4x11x256_0_1_2_3 : S1x1x1x256.BroadcastsInDim S32x4x11x256 (![0, 1, 2, 3] : Fin 4 → Fin S32x4x11x256.rank)
  bcast_S128_S1x1x1x128_3 : S128.BroadcastsInDim S1x1x1x128 (![3] : Fin 1 → Fin S1x1x1x128.rank)
  bcast_S1x1x1x128_S32x4x11x128_0_1_2_3 : S1x1x1x128.BroadcastsInDim S32x4x11x128 (![0, 1, 2, 3] : Fin 4 → Fin S32x4x11x128.rank)
  bcast_S_S32x4x11x128 : S_.BroadcastsInDim S32x4x11x128 (![] : Fin 0 → Fin S32x4x11x128.rank)
  bcast_S10_S1x1x1x10_3 : S10.BroadcastsInDim S1x1x1x10 (![3] : Fin 1 → Fin S1x1x1x10.rank)
  bcast_S1x1x1x10_S32x4x11x10_0_1_2_3 : S1x1x1x10.BroadcastsInDim S32x4x11x10 (![0, 1, 2, 3] : Fin 4 → Fin S32x4x11x10.rank)
  dot_S32x4x11x256_S128x256_S32x4x11x128_3_1_012_0_n_n_wf : DotDims.WF S32x4x11x256 S128x256 S32x4x11x128 [3] [1] [0, 1, 2] [0] [] []
  dot_S32x4x11x128_S10x128_S32x4x11x10_3_1_012_0_n_n_wf : DotDims.WF S32x4x11x128 S10x128 S32x4x11x10 [3] [1] [0, 1, 2] [0] [] []

variable [Facts₀]

def dot_S32x4x11x256_S128x256_S32x4x11x128_3_1_012_0_n_n : DotDims S32x4x11x256 S128x256 S32x4x11x128 where
  lhsContracting := [3]
  rhsContracting := [1]
  lhsNonContracting := [0, 1, 2]
  rhsNonContracting := [0]
  lhsBatch := []
  rhsBatch := []
  wf := dot_S32x4x11x256_S128x256_S32x4x11x128_3_1_012_0_n_n_wf
def dot_S32x4x11x128_S10x128_S32x4x11x10_3_1_012_0_n_n : DotDims S32x4x11x128 S10x128 S32x4x11x10 where
  lhsContracting := [3]
  rhsContracting := [1]
  lhsNonContracting := [0, 1, 2]
  rhsNonContracting := [0]
  lhsBatch := []
  rhsBatch := []
  wf := dot_S32x4x11x128_S10x128_S32x4x11x10_3_1_012_0_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.RowSpec.lean ====
/-
  What both programs compute, one row at a time. The input is a 1408 × 256 matrix; row number r of the flat matrix is
  row (b, t, h) of the 32 × 4 × 11 × 256 view, with r = (b·4 + t)·11 + h. Each row x of 256 entries is normalised
  (LayerNorm: subtract the row's mean, multiply by the reciprocal square root of the row's variance plus ε, scale by
  the gain and add the offset, entry by entry), sent through a dense layer to 128 entries, through the logistic
  function entry by entry, and through a second dense layer to 10 entries. The divisor 256 and ε are kept as their
  f32 words: both programs write the same words, so their values are never needed.
-/
import Idealize.ShloMosaic.PureOps.Ideal.Laws
import Idealize.ShloMosaic.Lib.ValueIdx
import proofs.«133840_j73315091742880_1_alg».proof.Proof.LibDenseRows

noncomputable section

namespace Cert.RowSpec

open Idealize.ShloMosaic Idealize.ShloMosaic.ValueIdx Cert.LibDenseRows

/-- The f32 word of 256, the length of a row, read at the extended reals. -/
abbrev w256 : EReal := Ideal.ofBits .f32 0x43800000#32
/-- The f32 word of ε (nearest to 1e-5), read at the extended reals. -/
abbrev wEps : EReal := Ideal.ofBits .f32 0x3727C5AC#32

/-- A row's mean: its sum divided by the word of 256. -/
def mean (x : Fin 256 → EReal) : EReal := Ideal.div (∑ k : Fin 256, x k) w256

/-- A row with its mean subtracted. -/
def centred (x : Fin 256 → EReal) : Fin 256 → EReal := fun d => x d - mean x

/-- A row's variance: the mean of the squares of the centred row. -/
def variance (x : Fin 256 → EReal) : EReal := Ideal.div (∑ k : Fin 256, centred x k * centred x k) w256

/-- LayerNorm of a row x with gain g and offset b: ((x - mean) · rsqrt(variance + ε)) · g + b. -/
def layerNorm (x g b : Fin 256 → EReal) : Fin 256 → EReal :=
  fun d => centred x d * Ideal.rsqrt (variance x + wEps) * g d + b d

/-- The logistic function on every entry of a row. -/
def logisticRow {N : ℕ} (z : Fin N → EReal) : Fin N → EReal := fun n => Ideal.logistic (z n)

/-- The whole row function: LayerNorm, a dense layer to 128 entries, the logistic function, a dense layer to 10 entries.
    The weight matrices are given as the programs hold them, output coordinate first. -/
def outRow (x g b : Fin 256 → EReal) (W1 : Fin 128 → Fin 256 → EReal) (b1 : Fin 128 → EReal)
    (W2 : Fin 10 → Fin 128 → EReal) (b2 : Fin 10 → EReal) : Fin 10 → EReal :=
  dense (logisticRow (dense (layerNorm x g b) (fun k n => W1 n k) b1)) (fun k n => W2 n k) b2

/-- The flat row number of row (b, t, h) of the 32 × 4 × 11 view. -/
def rowOf (b : Fin 32) (t : Fin 4) (h : Fin 11) : Fin 1408 :=
  ⟨(b.val * 4 + t.val) * 11 + h.val, by have := b.isLt; have := t.isLt; have := h.isLt; omega⟩

theorem rowOf_val (b : Fin 32) (t : Fin 4) (h : Fin 11) : (rowOf b t h).val = (b.val * 4 + t.val) * 11 + h.val := rfl

/-- The flat row number of row p of block t, the blocks being 128 rows each. -/
def blockRow (t : Fin 11) (p : Fin 128) : Fin 1408 :=
  ⟨t.val * 128 + p.val, by have := t.isLt; have := p.isLt; omega⟩

theorem blockRow_val (t : Fin 11) (p : Fin 128) : (blockRow t p).val = t.val * 128 + p.val := rfl

/-- The result as one function of the seven argument arrays, at flat row r and output column c. -/
def outAt (seq : (⟨2, ![1408, 256]⟩ : Shape).Idx → EReal) (g b : (⟨1, ![256]⟩ : Shape).Idx → EReal)
    (W1 : (⟨2, ![128, 256]⟩ : Shape).Idx → EReal) (b1 : (⟨1, ![128]⟩ : Shape).Idx → EReal)
    (W2 : (⟨2, ![10, 128]⟩ : Shape).Idx → EReal) (b2 : (⟨1, ![10]⟩ : Shape).Idx → EReal) (r : Fin 1408) (c : Fin 10) : EReal :=
  outRow (fun k => seq (ix2 r k)) (fun d => g (ix1 d)) (fun d => b (ix1 d)) (fun n k => W1 (ix2 n k)) (fun n => b1 (ix1 n))
    (fun n k => W2 (ix2 n k)) (fun n => b2 (ix1 n)) c

/-- The result over the 32 × 4 × 11 × 10 view: entry (a, b, c, e) is the row function of flat row (a·4 + b)·11 + c, at e. -/
def result (seq : (⟨2, ![1408, 256]⟩ : Shape).Idx → EReal) (g b : (⟨1, ![256]⟩ : Shape).Idx → EReal)
    (W1 : (⟨2, ![128, 256]⟩ : Shape).Idx → EReal) (b1 : (⟨1, ![128]⟩ : Shape).Idx → EReal)
    (W2 : (⟨2, ![10, 128]⟩ : Shape).Idx → EReal) (b2 : (⟨1, ![10]⟩ : Shape).Idx → EReal) :
    (⟨4, ![32, 4, 11, 10]⟩ : Shape).Idx → EReal :=
  fun i => outAt seq g b W1 b1 W2 b2 (rowOf (i 0) (i 1) (i 2)) (i 3)

end Cert.RowSpec

end
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.LibRowSum.lean ====
/-
  The sum along the rows of an a × k array of extended reals, for any sizes: read at row p it is the sum over j of the
  entries (p, j). This is the lane reduction a kernel uses for a row statistic (a row's sum, from which its mean or its
  variance), stated with indices written by coordinates.
-/
import Idealize.ShloMosaic.PureOps.Ideal.Laws
import Idealize.ShloMosaic.Lib.ValueIdx

namespace Cert.LibRowSum

open Idealize.ShloMosaic Idealize.ShloMosaic.ValueIdx

/-- The sum over the last axis of an `[a, k]` array of extended reals, read at `p`: the sum over `j` of the entries
    `(p, j)`. The accumulator is the neutral element of the sum, so it adds nothing. -/
theorem rowSum_apply {a k : ℕ} {φ : FTy} (src : FVec Ideal ⟨2, ![a, k]⟩ φ) (acc : BitVec φ.bits)
    (h : (⟨2, ![a, k]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ j : Fin k, src (ix2 p j) := by
  refine (Ideal.multiReduction_add_single src acc h hφ hacc (ix1 p)).trans ?_
  refine Finset.sum_congr rfl fun j _ => congrArg src ?_
  funext ax
  apply Fin.ext
  match ax with
  | ⟨0, _⟩ => rfl
  | ⟨1, _⟩ => rfl

end Cert.LibRowSum
-- ==== Proof.KernelRows.lean ====
/-
  The kernel body on one block of 128 rows, read along a row. The body normalises each row of the block (the row's sum
  kept as a 128 × 1 column, divided by 256, spread back over the row; the same for the variance; the reciprocal square
  root spread back; the gain and the offset cast to one row and spread down the rows), then applies two dense layers,
  each a block product into a zero accumulator with the weights transposed plus a bias row, with the logistic function
  between them. Changes of float format change no entry. So row p of what the body stores is the row function of row p
  of the input block.
-/
import proofs.«133840_j73315091742880_1_alg».proof.Proof.Gen.KernelIdeal.Skeleton
import proofs.«133840_j73315091742880_1_alg».proof.Proof.RowSpec
import proofs.«133840_j73315091742880_1_alg».proof.Proof.LibKeepdims
import proofs.«133840_j73315091742880_1_alg».proof.Proof.LibRowSum
import Idealize.ShloMosaic.Lib.ValueLayout
import Idealize.ShloMosaic.Lib.Pipeline.Value

noncomputable section

namespace Cert.KernelRows

open Idealize.ShloMosaic Idealize.ShloMosaic.ValueIdx
open Cert.KernelIdeal Cert.KernelIdeal.Gen
open Cert.LibDenseRows Cert.LibKeepdims Cert.LibRowSum Cert.RowSpec

variable (x : Vec Ideal S128x256 .f32) (g b : Vec Ideal S256 .f32)

/-- The block's row means, as the body keeps them: a 128 × 1 column. -/
def blkMean : FVec Ideal S128x1 .f32 :=
  divf (shapeCast S128x1 (multiReduction .add [1] S128 x 0x00000000#32 reduces_S128x256_S128 (.inl rfl) rfl) shapeCasts_S128_S128x1)
    (broadcast S128x1 (Scalar.ofBits .f32 0x43800000#32))

/-- The block with each row's mean subtracted. -/
def blkCentred : FVec Ideal S128x256 .f32 := subf x (broadcastTo S128x256 (blkMean x) broadcasts_S128x1_S128x256)

/-- The block's row variances, a 128 × 1 column. -/
def blkVar : FVec Ideal S128x1 .f32 :=
  divf (shapeCast S128x1 (multiReduction .add [1] S128 (mulf (blkCentred x) (blkCentred x)) 0x00000000#32 reduces_S128x256_S128 (.inl rfl) rfl)
      shapeCasts_S128_S128x1)
    (broadcast S128x1 (Scalar.ofBits .f32 0x43800000#32))

/-- The block normalised, scaled by the gain and shifted by the offset. -/
def blkNorm : FVec Ideal S128x256 .f32 :=
  addf (mulf (mulf (blkCentred x)
        (broadcastTo S128x256 (rsqrt (addf (blkVar x) (broadcast S128x1 (Scalar.ofBits .f32 0x3727C5AC#32)))) broadcasts_S128x1_S128x256))
      (broadcastTo S128x256 (shapeCast S1x256 g shapeCasts_S256_S1x256) broadcasts_S1x256_S128x256))
    (broadcastTo S128x256 (shapeCast S1x256 b shapeCasts_S256_S1x256) broadcasts_S1x256_S128x256)

theorem blkMean_apply (p : Fin 128) (u : Fin 1) : blkMean x (ix2 p u) = mean (fun k => x (ix2 p k)) := by
  unfold blkMean mean
  rw [divf_apply, shapeCast_a_a1_apply]
  exact congrArg (Ideal.div · _) (rowSum_apply x _ _ _ _ p)

theorem blkCentred_apply (p : Fin 128) (d : Fin 256) : blkCentred x (ix2 p d) = centred (fun k => x (ix2 p k)) d := by
  unfold blkCentred centred
  rw [subf_apply, broadcastTo_a1_ab_apply, blkMean_apply]

theorem blkVar_apply (p : Fin 128) (u : Fin 1) : blkVar x (ix2 p u) = variance (fun k => x (ix2 p k)) := by
  unfold blkVar variance
  rw [divf_apply, shapeCast_a_a1_apply]
  refine (congrArg (Ideal.div · _) (rowSum_apply (mulf (blkCentred x) (blkCentred x)) _ _ _ _ p)).trans ?_
  simp only [mulf_apply, blkCentred_apply]
  rfl

/-- Row p of the normalised block is LayerNorm of row p. -/
theorem blkNorm_row (p : Fin 128) :
    (fun d : Fin 256 => blkNorm x g b (ix2 p d)) = layerNorm (fun k => x (ix2 p k)) (fun d => g (ix1 d)) (fun d => b (ix1 d)) := by
  funext d
  unfold blkNorm layerNorm
  simp only [addf_apply, mulf_apply, blkCentred_apply, broadcastTo_a1_ab_apply, broadcastTo_1b_ab_apply, shapeCast_a_1a_apply]
  show _ * Ideal.rsqrt (blkVar x (ix2 p (0 : Fin 1)) + _) * _ + _ = _
  rw [blkVar_apply]
  rfl

variable (x3 : Vec Ideal S128x256 .f32) (x4 : Vec Ideal S128 .f32) (x5 : Vec Ideal S10x128 .f32) (x6 : Vec Ideal S10 .f32)

/-- The hidden layer of the block: the first dense layer on the normalised block, then the logistic function. -/
def blkHidden : FVec Ideal S128x128 .f32 :=
  logistic (kDense (truncf .bf16 (blkNorm x g b) bitsLt_bf16_f32)
    (transpose S256x128 [1, 0] (truncf .bf16 x3 bitsLt_bf16_f32) transposes_S128x256_p1_0_S256x128) x4
    shapeCasts_S128_S1x128 broadcasts_S1x128_S128x128)

/-- What the body stores is the second dense layer on the hidden layer: the printed operations, regrouped. -/
theorem pay_eq : k0_pay1 (k0_pay2 x g b x3 x4 x5) (k0_pay3 x6)
    = kDense (truncf .bf16 (blkHidden x g b x3 x4) bitsLt_bf16_f32)
        (transpose S128x10 [1, 0] (truncf .bf16 x5 bitsLt_bf16_f32) transposes_S10x128_p1_0_S128x10) x6
        shapeCasts_S10_S1x10 broadcasts_S1x10_S128x10 := rfl

/-- Row p of the hidden layer: the logistic function of the first dense layer of LayerNorm of row p. -/
theorem blkHidden_row (p : Fin 128) :
    (fun n : Fin 128 => blkHidden x g b x3 x4 (ix2 p n))
      = logisticRow (dense (layerNorm (fun k => x (ix2 p k)) (fun d => g (ix1 d)) (fun d => b (ix1 d)))
          (fun k n => x3 (ix2 n k)) (fun n => x4 (ix1 n))) := by
  have h := kDense_row (truncf .bf16 (blkNorm x g b) bitsLt_bf16_f32)
    (transpose S256x128 [1, 0] (truncf .bf16 x3 bitsLt_bf16_f32) transposes_S128x256_p1_0_S256x128) x4
    shapeCasts_S128_S1x128 broadcasts_S1x128_S128x128 p
  funext n
  unfold blkHidden logisticRow
  show Ideal.logistic (kDense _ _ x4 _ _ (ix2 p n)) = _
  rw [congrFun h n]
  congr 2
  · exact blkNorm_row x g b p
  · funext k m
    exact transpose_ix2_apply _ _ k m

/-- Row p of what the body stores is the whole row function of row p of the input block. -/
theorem pay_row (p : Fin 128) :
    (fun c : Fin 10 => k0_pay1 (k0_pay2 x g b x3 x4 x5) (k0_pay3 x6) (ix2 p c))
      = outRow (fun k => x (ix2 p k)) (fun d => g (ix1 d)) (fun d => b (ix1 d)) (fun n k => x3 (ix2 n k)) (fun n => x4 (ix1 n))
          (fun n k => x5 (ix2 n k)) (fun n => x6 (ix1 n)) := by
  rw [pay_eq, kDense_row]
  unfold outRow
  congr 1
  · exact blkHidden_row x g b x3 x4 p
  · funext k m
    exact transpose_ix2_apply _ _ k m

/-- If the seven loaded blocks are block t of seven arrays — the input's rows t·128 … t·128 + 127, the six small arrays
    whole — then entry (p, q) of what the body stores is the result at flat row t·128 + p and column q. -/
theorem pay_of_arrays (A0 : (⟨2, ![1408, 256]⟩ : Shape).Idx → EReal) (A1 A2 : (⟨1, ![256]⟩ : Shape).Idx → EReal)
    (A3 : (⟨2, ![128, 256]⟩ : Shape).Idx → EReal) (A4 : (⟨1, ![128]⟩ : Shape).Idx → EReal)
    (A5 : (⟨2, ![10, 128]⟩ : Shape).Idx → EReal) (A6 : (⟨1, ![10]⟩ : Shape).Idx → EReal) (t : Fin 11)
    (h0 : ∀ (p : Fin 128) (k : Fin 256), x (ix2 p k) = A0 (ix2 (blockRow t p) k))
    (h1 : ∀ d : Fin 256, g (ix1 d) = A1 (ix1 d)) (h2 : ∀ d : Fin 256, b (ix1 d) = A2 (ix1 d))
    (h3 : ∀ (n : Fin 128) (k : Fin 256), x3 (ix2 n k) = A3 (ix2 n k)) (h4 : ∀ n : Fin 128, x4 (ix1 n) = A4 (ix1 n))
    (h5 : ∀ (n : Fin 10) (k : Fin 128), x5 (ix2 n k) = A5 (ix2 n k)) (h6 : ∀ n : Fin 10, x6 (ix1 n) = A6 (ix1 n))
    (p : Fin 128) (q : Fin 10) :
    k0_pay1 (k0_pay2 x g b x3 x4 x5) (k0_pay3 x6) (ix2 p q) = outAt A0 A1 A2 A3 A4 A5 A6 (blockRow t p) q := by
  refine (congrFun (pay_row x g b x3 x4 x5 x6 p) q).trans ?_
  unfold outAt
  simp only [h0, h1, h2, h3, h4, h5, h6]

end Cert.KernelRows

end
-- ==== Proof.KernelArray.lean ====
/-
  From blocks to the whole array, and on through the final reshape. The grid has 11 points; point t reads rows
  t·128 … t·128 + 127 of the input and the six small arrays whole, and writes back rows t·128 … t·128 + 127 of the
  1408 × 10 output. The 11 blocks tile the output, so after the run the output holds, at (r, q), the row function of
  input row r at column q. The program then reshapes the output to 32 × 4 × 11 × 10, which puts entry (r, q) at
  ((a, b, c), q) with r = (a·4 + b)·11 + c.
-/
import proofs.«133840_j73315091742880_1_alg».proof.Proof.Gen.KernelIdeal.Frame
import proofs.«133840_j73315091742880_1_alg».proof.Proof.KernelRows
import Idealize.ShloMosaic.Lib.Pipeline.Value
import Idealize.ShloMosaic.Lib.StableHlo.Run
import Idealize.ShloMosaic.Lib.Tactic

set_option maxRecDepth 16384

noncomputable section

namespace Cert.KernelArray

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)
open Cert.RowSpec

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The seven argument arrays as the region finds them, each at its literal type. -/
abbrev a0 (c : Dev nD) : S1408x256.Idx → EReal := V m c main_arg0
abbrev a1 (c : Dev nD) : S256.Idx → EReal := V m c main_arg1
abbrev a2 (c : Dev nD) : S256.Idx → EReal := V m c main_arg2
abbrev a3 (c : Dev nD) : S128x256.Idx → EReal := V m c main_arg3
abbrev a4 (c : Dev nD) : S128.Idx → EReal := V m c main_arg4
abbrev a5 (c : Dev nD) : S10x128.Idx → EReal := V m c main_arg5
abbrev a6 (c : Dev nD) : S10.Idx → EReal := V m c main_arg6

/-- The 1408 × 10 output as one function of the argument arrays as the region finds them: at (r, q), the row function of
    input row r, at column q. -/
def arrOut (c : Dev nD) : S1408x10.Idx → EReal := fun j =>
  outAt (a0 m c) (a1 m c) (a2 m c) (a3 m c) (a4 m c) (a5 m c) (a6 m c) (j 0) (j 1)

/-- The printed index maps over the grid: the input's and the output's block row is the point's number, every other
    block index is zero. -/
theorem idx_facts : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = t.val ∧ win0_7.index t (1 : Fin 2) = 0 :=
  (by decide +kernel : ∀ t : Fin grid0.N, _)

/-- What point t writes back is block t of the output function. -/
theorem flushed_eq (c : Dev nD) (t : Fin cfg0.N) :
    (dats m 0 c).flushed 7 t = ((cfg0.win 7).blk t).view.read (Elt Ideal) (arrOut m c) := by
  show (cfg0.win 7).cut (grid0.coords t) ((dats m 0 c).after 7 t) = _
  rw [after0_7]
  unfold out0_7
  rw [View.canon_unit_zero hz2]
  simp only [View.ld_unit_zero (S := S128x256) hz2, View.ld_unit_zero (S := S256) hz1, View.ld_unit_zero (S := S128) hz1,
    View.ld_unit_zero (S := S10x128) hz2, View.ld_unit_zero (S := S10) hz1]
  obtain ⟨e00, e01, e1, e2, e30, e31, e4, e50, e51, e6, e70, e71⟩ := idx_facts t
  have ht : t.val < 11 := Nat.lt_of_lt_of_eq t.isLt N_0
  have h0 : ∀ (p : Fin 128) (k : Fin 256), iblk m c 0 t (ix2 p k) = a0 m c (ix2 (blockRow ⟨t.val, ht⟩ p) k) := by
    intro p k
    show a0 m c (((cfg0.win 0).blk t).view.emb (ix2 p k)) = _
    refine congrArg (a0 m c) (funext fun a => Fin.ext ?_)
    match a with
    | ⟨0, _⟩ => show win0_0.index t (0 : Fin 2) * 128 + 1 * p.val = t.val * 128 + p.val; rw [e00]; omega
    | ⟨1, _⟩ => show win0_0.index t (1 : Fin 2) * 256 + 1 * k.val = k.val; rw [e01]; omega
  have h1 : ∀ d : Fin 256, iblk m c 1 t (ix1 d) = a1 m c (ix1 d) := by
    intro d
    show a1 m c (((cfg0.win 1).blk t).view.emb (ix1 d)) = _
    refine congrArg (a1 m c) (funext fun a => Fin.ext ?_)
    match a with
    | ⟨0, _⟩ => show win0_1.index t (0 : Fin 1) * 256 + 1 * d.val = d.val; rw [e1]; omega
  have h2 : ∀ d : Fin 256, iblk m c 2 t (ix1 d) = a2 m c (ix1 d) := by
    intro d
    show a2 m c (((cfg0.win 2).blk t).view.emb (ix1 d)) = _
    refine congrArg (a2 m c) (funext fun a => Fin.ext ?_)
    match a with
    | ⟨0, _⟩ => show win0_2.index t (0 : Fin 1) * 256 + 1 * d.val = d.val; rw [e2]; omega
  have h3 : ∀ (n : Fin 128) (k : Fin 256), iblk m c 3 t (ix2 n k) = a3 m c (ix2 n k) := by
    intro n k
    show a3 m c (((cfg0.win 3).blk t).view.emb (ix2 n k)) = _
    refine congrArg (a3 m c) (funext fun a => Fin.ext ?_)
    match a with
    | ⟨0, _⟩ => show win0_3.index t (0 : Fin 2) * 128 + 1 * n.val = n.val; rw [e30]; omega
    | ⟨1, _⟩ => show win0_3.index t (1 : Fin 2) * 256 + 1 * k.val = k.val; rw [e31]; omega
  have h4 : ∀ n : Fin 128, iblk m c 4 t (ix1 n) = a4 m c (ix1 n) := by
    intro n
    show a4 m c (((cfg0.win 4).blk t).view.emb (ix1 n)) = _
    refine congrArg (a4 m c) (funext fun a => Fin.ext ?_)
    match a with
    | ⟨0, _⟩ => show win0_4.index t (0 : Fin 1) * 128 + 1 * n.val = n.val; rw [e4]; omega
  have h5 : ∀ (n : Fin 10) (k : Fin 128), iblk m c 5 t (ix2 n k) = a5 m c (ix2 n k) := by
    intro n k
    show a5 m c (((cfg0.win 5).blk t).view.emb (ix2 n k)) = _
    refine congrArg (a5 m c) (funext fun a => Fin.ext ?_)
    match a with
    | ⟨0, _⟩ => show win0_5.index t (0 : Fin 2) * 10 + 1 * n.val = n.val; rw [e50]; omega
    | ⟨1, _⟩ => show win0_5.index t (1 : Fin 2) * 128 + 1 * k.val = k.val; rw [e51]; omega
  have h6 : ∀ n : Fin 10, iblk m c 6 t (ix1 n) = a6 m c (ix1 n) := by
    intro n
    show a6 m c (((cfg0.win 6).blk t).view.emb (ix1 n)) = _
    refine congrArg (a6 m c) (funext fun a => Fin.ext ?_)
    match a with
    | ⟨0, _⟩ => show win0_6.index t (0 : Fin 1) * 10 + 1 * n.val = n.val; rw [e6]; omega
  funext j
  have key := Cert.KernelRows.pay_of_arrays (iblk m c 0 t) (iblk m c 1 t) (iblk m c 2 t) (iblk m c 3 t) (iblk m c 4 t)
    (iblk m c 5 t) (iblk m c 6 t) (a0 m c) (a1 m c) (a2 m c) (a3 m c) (a4 m c) (a5 m c) (a6 m c) ⟨t.val, ht⟩
    h0 h1 h2 h3 h4 h5 h6 (j 0) (j 1)
  have hj : j = ix2 (j 0) (j 1) := eq_ix2 j
  have r0 : (((cfg0.win 7).blk t).view.emb j) 0 = blockRow ⟨t.val, ht⟩ (j 0) := Fin.ext (by
    show win0_7.index t (0 : Fin 2) * 128 + 1 * (j 0).val = t.val * 128 + (j 0).val
    rw [e70]; omega)
  have r1 : (((cfg0.win 7).blk t).view.emb j) 1 = j 1 := Fin.ext (by
    show win0_7.index t (1 : Fin 2) * 10 + 1 * (j 1).val = (j 1).val
    rw [e71]; omega)
  show k0_pay1 (k0_pay2 (iblk m c 0 t) (iblk m c 1 t) (iblk m c 2 t) (iblk m c 3 t) (iblk m c 4 t) (iblk m c 5 t))
      (k0_pay3 (iblk m c 6 t)) j = arrOut m c (((cfg0.win 7).blk t).view.emb j)
  unfold arrOut
  rw [r0, r1, ← key]
  exact congrArg _ hj

/-- An index of the output is in point t's block iff each coordinate is in the block's range on its axis. -/
theorem mem_blk (t : Fin cfg0.N) (i : S1408x10.Idx) :
    i ∈ ((cfg0.win 7).blk t).view.set ↔ ∀ a : Fin 2, win0_7.index t a * S128x10.size a ≤ (i a).val ∧ (i a).val < win0_7.index t a * S128x10.size a + S128x10.size a := by
  show i ∈ ((View.whole main_v0).slice (win0_7.rect t)).set ↔ _
  rw [View.set_slice_whole, Rect.mem_set_unit]
  exact Iff.rfl

/-- The blocks tile the output: row r lies in the block of point r / 128. -/
theorem cover (i : S1408x10.Idx) : ∃ t : Fin cfg0.N, (cfg0.win 7).flush t = true ∧ i ∈ ((cfg0.win 7).blk t).view.set := by
  have hi0 : (i 0).val < 1408 := (i 0).isLt
  have hi1 : (i 1).val < 10 := (i 1).isLt
  have hN : (i 0).val / 128 < cfg0.N := by show _ < grid0.N; rw [N_0]; omega
  obtain ⟨-, -, -, -, -, -, -, -, -, -, e70, e71⟩ := idx_facts ⟨(i 0).val / 128, hN⟩
  refine ⟨⟨(i 0).val / 128, hN⟩, flush0_7 _, ?_⟩
  rw [mem_blk]
  intro a
  match a with
  | ⟨0, _⟩ =>
    show win0_7.index ⟨(i 0).val / 128, hN⟩ (0 : Fin 2) * 128 ≤ (i 0).val ∧ (i 0).val < win0_7.index ⟨(i 0).val / 128, hN⟩ (0 : Fin 2) * 128 + 128
    rw [e70]
    show (i 0).val / 128 * 128 ≤ (i 0).val ∧ (i 0).val < (i 0).val / 128 * 128 + 128
    omega
  | ⟨1, _⟩ =>
    show win0_7.index ⟨(i 0).val / 128, hN⟩ (1 : Fin 2) * 10 ≤ (i 1).val ∧ (i 1).val < win0_7.index ⟨(i 0).val / 128, hN⟩ (1 : Fin 2) * 10 + 10
    rw [e71]
    omega

/-- After the region the output array holds the output function. -/
theorem final (c : Dev nD) : (dats m 0 c).arrAt 7 cfg0.N = arrOut m c :=
  (dats m 0 c).arrAt_eq_of_cover 7 (arrOut m c) (fun t _ => flushed_eq m c t) cover

/-- The reshaped result, as a function of the arguments as launched. -/
theorem tail_eq (c : Dev nD) :
    Pipeline.afterTail₀ cfgs (dats m) 0 (V0 m) [hostOps1] c main_v1
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  unfold Pipeline.afterTail₀
  show StableHlo.after hostOps1 _ (Proc.devRef .tc main_v1) = _
  after_results
  have hw : (Pipeline.withArrays spec0 c (V0 m c) (fun w => (dats m 0 c).arrAt w cfg0.N) (Proc.devRef .tc main_v0) : S1408x10.Idx → EReal)
      = arrOut m c := (Pipeline.withArrays_arr spec0 launch0.win.arr_inj c _ _ 7).trans (final m c)
  funext i
  obtain ⟨a, b, c', e, rfl⟩ : ∃ (a : Fin 32) (b : Fin 4) (c' : Fin 11) (e : Fin 10), i = ix4 a b c' e := ⟨i 0, i 1, i 2, i 3, eq_ix4 i⟩
  show shapeCast S32x4x11x10 (Pipeline.withArrays spec0 c (V0 m c) (fun w => (dats m 0 c).arrAt w cfg0.N) (Proc.devRef .tc main_v0) : S1408x10.Idx → EReal)
      shapeCasts_S1408x10_S32x4x11x10 (ix4 a b c' e) = _
  rw [hw]
  refine (shapeCast_apply (arrOut m c) shapeCasts_S1408x10_S32x4x11x10 (ix4 a b c' e) (ix2 (rowOf a b c') e) ?_).trans ?_
  · rw [Shape.rowMajor_val_two, Shape.rowMajor_val_four]
    rfl
  · rfl

/-- The result buffer is unscoped and is no window's array, so the frame run's post speaks of it. -/
theorem v1_rest : main_v1 ∈ Pipeline.restRefs sig (cfgs 0).spec :=
  Pipeline.mem_restRefs_of main_v1 rfl (fun w => by fin_cases w <;> decide)

/-- The kernel program's run: every weakly fair execution terminates with the result buffer at the result function of
    the arguments, and the arguments unchanged. -/
theorem run : θ_run defs (onTc (τ := τ) (main (F := Ideal))) ⟨m, fun _ => 0, ρ⟩ (fun r => ∀ c : Dev nD,
      r.2.mem ((c.tc : Thread nD τ).loc main_v1)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelArray

end
-- ==== Proof.LibMidAxis.lean ====
/-
  Three facts about an a × k × b array and its middle axis, for any sizes. The sum over the middle axis, read at
  (p, q), is the sum over j of the entries (p, j, q). An a × b array cast to a × 1 × b reads, at (p, u, q), its entry
  (p, q): the two indices have the same row-major position. An a × 1 × b array broadcast to a × k × b reads, at
  (p, j, q), its entry (p, 0, q). Together: a statistic taken along the middle axis, kept as a middle axis of length
  one and spread back along it, is that statistic at every j. Also here: the f32 word of one denotes the real one,
  and the logistic function written out as 1 / (1 + e^(-z)) over that word is the logistic function at every
  extended real, the infinities included.
-/
import Idealize.ShloMosaic.PureOps.Ideal.Laws
import Idealize.ShloMosaic.Lib.ValueIdx
import Idealize.ShloMosaic.Lib.Pipeline.Value

namespace Cert.LibMidAxis

open Idealize.ShloMosaic Idealize.ShloMosaic.ValueIdx

variable {α : Type}

/-- An `[a, b]` array cast to `[a, 1, b]` reads, at `(p, u, q)`, the operand at `(p, q)`, whatever the unit
    coordinate `u`: both indices sit at row-major position `p * b + q`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- An `[a, 1, b]` array broadcast to `[a, k, b]` reads, at `(p, j, q)`, the operand at `(p, 0, q)`. -/
theorem broadcastTo_a1b_akb_apply {a k b : ℕ} (v : (⟨3, ![a, 1, b]⟩ : Shape).Idx → α)
    (h : (⟨3, ![a, 1, b]⟩ : Shape).Broadcasts ⟨3, ![a, k, b]⟩) (p : Fin a) (j : Fin k) (q : Fin b) :
    broadcastTo ⟨3, ![a, k, b]⟩ v h (ix3 p j q) = v (ix3 p (0 : Fin 1) q) := by
  refine broadcastTo_apply v h (ix3 p j q) (ix3 p (0 : Fin 1) q) fun ax => ?_
  match ax with
  | ⟨0, _⟩ =>
    show p.val = if a = 1 then 0 else p.val
    split
    · have := p.isLt; omega
    · rfl
  | ⟨1, _⟩ =>
    show 0 = if (1 : ℕ) = 1 then 0 else j.val
    rw [if_pos rfl]
  | ⟨2, _⟩ =>
    show q.val = if b = 1 then 0 else q.val
    split
    · have := q.isLt; omega
    · rfl

/-- The sum over the middle axis of an `[a, k, b]` array of extended reals, read at `(p, q)`: the sum over `j` of the
    entries `(p, j, q)`. -/
theorem sum_mid_apply {a k b : ℕ} {φ : FTy} (src : FVec Ideal ⟨3, ![a, k, b]⟩ φ) (acc : BitVec φ.bits)
    (h : (⟨3, ![a, k, b]⟩ : Shape).Reduces [1] ⟨2, ![a, b]⟩) (hφ : FKind.Formats φ) (hacc : acc = FKind.add.neutral φ hφ)
    (p : Fin a) (q : Fin b) :
    multiReduction .add [1] ⟨2, ![a, b]⟩ src acc h hφ hacc (ix2 p q) = ∑ j : Fin k, src (ix3 p j q) := by
  refine (Ideal.multiReduction_add_single src acc h hφ hacc (ix2 p q)).trans ?_
  refine Finset.sum_congr rfl fun j _ => congrArg src ?_
  funext ax
  apply Fin.ext
  match ax with
  | ⟨0, _⟩ => rfl
  | ⟨1, _⟩ => rfl
  | ⟨2, _⟩ => rfl

/-- The f32 word `0x3F800000` denotes the real number one. -/
theorem one_word : Ideal.ofBits .f32 0x3F800000#32 = 1 := by
  simp [Ideal.ofBits, Ideal.ieee, -EReal.coe_mul]; norm_num

/-- The logistic function written out, `1 / (1 + e^(-z))` with both ones the f32 word of one, is the logistic function
    at every extended real: at `⊥` both are `0` and at `⊤` both are `1`, since the two sides are one expression. -/
theorem logistic_written_out (z : EReal) :
    Ideal.div (Ideal.ofBits .f32 0x3F800000#32) (Ideal.ofBits .f32 0x3F800000#32 + Ideal.exp (-z)) = Ideal.logistic z := by
  rw [one_word]; rfl

end Cert.LibMidAxis
-- ==== Proof.RefRows.lean ====
/-
  The reference program read along a row. The reference views the 1408 × 256 input as 32 × 4 × 11 × 256 and works on that
  view throughout; entry (a, b, c, d) of the view is entry (r, d) of the flat matrix with r = (a·4 + b)·11 + c. Every
  statistic is taken along the last axis and spread back along it, so each stage at (a, b, c, ·) depends on row r alone:
  the mean, the centred row, the variance, LayerNorm, the first dense layer, the logistic function written out as
  1 / (1 + e^(-z)), and the second dense layer. The sums start from the word of zero, which adds nothing.
-/
import proofs.«133840_j73315091742880_1_alg».proof.Proof.Gen.ReferenceIdeal.Read
import proofs.«133840_j73315091742880_1_alg».proof.Proof.RowSpec
import proofs.«133840_j73315091742880_1_alg».proof.Proof.LibMidAxis

noncomputable section

namespace Cert.RefRows

open Idealize.ShloMosaic Idealize.ShloMosaic.ValueIdx
open Cert.ReferenceIdeal Cert.ReferenceIdeal.Read
open Cert.LibDenseRows Cert.LibMidAxis Cert.RowSpec

/-! ## The composed index maps, at coordinates -/

section Indices
variable (a : Fin 32) (b : Fin 4) (c : Fin 11)

theorem idx_flat (d : Fin 256) : idx_main_v0 (ix4 a b c d) = ix2 (rowOf a b c) d :=
  funext fun ax => Fin.ext (by
    have ha := a.isLt; have hb := b.isLt; have hc := c.isLt; have hd := d.isLt
    match ax with
    | ⟨0, _⟩ =>
      show (((a.val * 4 + b.val) * 11 + c.val) * 256 + d.val) / 256 = (a.val * 4 + b.val) * 11 + c.val
      omega
    | ⟨1, _⟩ =>
      show (((a.val * 4 + b.val) * 11 + c.val) * 256 + d.val) % 256 = d.val
      omega)

theorem idx_keep (u : Fin 1) : idx_main_v2 (ix4 a b c u) = ix3 a b c :=
  funext fun ax => Fin.ext (by match ax with | ⟨0, _⟩ => rfl | ⟨1, _⟩ => rfl | ⟨2, _⟩ => rfl)
theorem idx_keep' (u : Fin 1) : idx_main_v9 (ix4 a b c u) = ix3 a b c :=
  funext fun ax => Fin.ext (by match ax with | ⟨0, _⟩ => rfl | ⟨1, _⟩ => rfl | ⟨2, _⟩ => rfl)
theorem idx_along (k : Fin 256) : idx_main_v1 (ix3 a b c) k = ix4 a b c k :=
  funext fun ax => Fin.ext (by match ax with | ⟨0, _⟩ => rfl | ⟨1, _⟩ => rfl | ⟨2, _⟩ => rfl | ⟨3, _⟩ => rfl)
theorem idx_along' (k : Fin 256) : idx_main_v8 (ix3 a b c) k = ix4 a b c k :=
  funext fun ax => Fin.ext (by match ax with | ⟨0, _⟩ => rfl | ⟨1, _⟩ => rfl | ⟨2, _⟩ => rfl | ⟨3, _⟩ => rfl)
theorem idx_spread5 (d : Fin 256) : idx_main_v5 (ix4 a b c d) = ix4 a b c (0 : Fin 1) :=
  funext fun ax => Fin.ext (by match ax with | ⟨0, _⟩ => rfl | ⟨1, _⟩ => rfl | ⟨2, _⟩ => rfl | ⟨3, _⟩ => rfl)
theorem idx_spread12 (d : Fin 256) : idx_main_v12 (ix4 a b c d) = ix4 a b c (0 : Fin 1) :=
  funext fun ax => Fin.ext (by match ax with | ⟨0, _⟩ => rfl | ⟨1, _⟩ => rfl | ⟨2, _⟩ => rfl | ⟨3, _⟩ => rfl)
theorem idx_spread17 (d : Fin 256) : idx_main_v17 (ix4 a b c d) = ix4 a b c (0 : Fin 1) :=
  funext fun ax => Fin.ext (by match ax with | ⟨0, _⟩ => rfl | ⟨1, _⟩ => rfl | ⟨2, _⟩ => rfl | ⟨3, _⟩ => rfl)
theorem idx_gain (d : Fin 256) : idx_main_v19 (idx_main_v20 (ix4 a b c d)) = ix1 d :=
  funext fun ax => Fin.ext (by match ax with | ⟨0, _⟩ => rfl)
theorem idx_offset (d : Fin 256) : idx_main_v22 (idx_main_v23 (ix4 a b c d)) = ix1 d :=
  funext fun ax => Fin.ext (by match ax with | ⟨0, _⟩ => rfl)
theorem idx_l1 (n : Fin 128) (k : Fin 256) : lidx_main_v25 (ix4 a b c n) k = ix4 a b c k :=
  funext fun ax => Fin.ext (by match ax with | ⟨0, _⟩ => rfl | ⟨1, _⟩ => rfl | ⟨2, _⟩ => rfl | ⟨3, _⟩ => rfl)
theorem idx_r1 (n : Fin 128) (k : Fin 256) : ridx_main_v25 (ix4 a b c n) k = ix2 n k :=
  funext fun ax => Fin.ext (by match ax with | ⟨0, _⟩ => rfl | ⟨1, _⟩ => rfl)
theorem idx_bias1 (n : Fin 128) : idx_main_v26 (idx_main_v27 (ix4 a b c n)) = ix1 n :=
  funext fun ax => Fin.ext (by match ax with | ⟨0, _⟩ => rfl)
theorem idx_l2 (e : Fin 10) (k : Fin 128) : lidx_main_v35 (ix4 a b c e) k = ix4 a b c k :=
  funext fun ax => Fin.ext (by match ax with | ⟨0, _⟩ => rfl | ⟨1, _⟩ => rfl | ⟨2, _⟩ => rfl | ⟨3, _⟩ => rfl)
theorem idx_r2 (e : Fin 10) (k : Fin 128) : ridx_main_v35 (ix4 a b c e) k = ix2 e k :=
  funext fun ax => Fin.ext (by match ax with | ⟨0, _⟩ => rfl | ⟨1, _⟩ => rfl)
theorem idx_bias2 (e : Fin 10) : idx_main_v36 (idx_main_v37 (ix4 a b c e)) = ix1 e :=
  funext fun ax => Fin.ext (by match ax with | ⟨0, _⟩ => rfl)

end Indices

/-! ## The stages, at coordinates -/

variable (x0 : (⟨S1408x256, .f32⟩ : BufTy).Contents (Elt Ideal)) (x1 x2 : (⟨S256, .f32⟩ : BufTy).Contents (Elt Ideal))
  (x3 : (⟨S128x256, .f32⟩ : BufTy).Contents (Elt Ideal)) (x4 : (⟨S128, .f32⟩ : BufTy).Contents (Elt Ideal))
  (x5 : (⟨S10x128, .f32⟩ : BufTy).Contents (Elt Ideal)) (x6 : (⟨S10, .f32⟩ : BufTy).Contents (Elt Ideal))
variable (a : Fin 32) (b : Fin 4) (c : Fin 11)

/-- The view at (a, b, c, d) is the flat matrix at (row, d). -/
theorem view_apply (d : Fin 256) : val_main_v0 x0 (ix4 a b c d) = x0 (ix2 (rowOf a b c) d) := by
  rw [val_main_v0_apply, idx_flat]

/-- The kept mean at (a, b, c, ·) is the mean of the row. -/
theorem mean_apply (u : Fin 1) : val_main_v4 x0 (ix4 a b c u) = mean (fun k => x0 (ix2 (rowOf a b c) k)) := by
  rw [val_main_v4_apply, val_main_v2_apply, idx_keep, val_main_v1_apply, val_main_v3_apply, val_main_cst_0_apply, val_main_cst_apply]
  simp only [idx_along, view_apply]
  unfold mean
  rw [Ideal.hostDivf_def, Ideal.ofBits_def, Ideal.ofBits_zero_f32, zero_add]
  rfl

/-- The centred view at (a, b, c, d) is the centred row at d (the stage that feeds the variance). -/
theorem centred_apply (d : Fin 256) : val_main_v6 x0 (ix4 a b c d) = centred (fun k => x0 (ix2 (rowOf a b c) k)) d := by
  rw [val_main_v6_apply, val_main_v5_apply, idx_spread5, mean_apply, view_apply]
  rfl

/-- The same for the second copy of the centred view (the stage that feeds the product). -/
theorem centred_apply' (d : Fin 256) : val_main_v13 x0 (ix4 a b c d) = centred (fun k => x0 (ix2 (rowOf a b c) k)) d := by
  rw [val_main_v13_apply, val_main_v12_apply, idx_spread12, mean_apply, view_apply]
  rfl

/-- The kept variance at (a, b, c, ·) is the variance of the row. -/
theorem variance_apply (u : Fin 1) : val_main_v11 x0 (ix4 a b c u) = variance (fun k => x0 (ix2 (rowOf a b c) k)) := by
  rw [val_main_v11_apply, val_main_v9_apply, idx_keep', val_main_v8_apply, val_main_v10_apply, val_main_cst_2_apply, val_main_cst_1_apply]
  simp only [idx_along', val_main_v7_apply, centred_apply]
  unfold variance
  rw [Ideal.hostDivf_def, Ideal.ofBits_def, Ideal.ofBits_zero_f32, zero_add]
  rfl

/-- The normalised view at (a, b, c, d) is LayerNorm of the row at d. -/
theorem norm_apply (d : Fin 256) :
    val_main_v24 x0 x1 x2 (ix4 a b c d)
      = layerNorm (fun k => x0 (ix2 (rowOf a b c) k)) (fun d => x1 (ix1 d)) (fun d => x2 (ix1 d)) d := by
  rw [val_main_v24_apply, val_main_v21_apply, val_main_v18_apply, centred_apply', val_main_v17_apply, idx_spread17, val_main_v16_apply,
    val_main_v15_apply, variance_apply, val_main_v14_apply, val_main_cst_3_apply, val_main_v20_apply, val_main_v19_apply, idx_gain,
    val_main_v23_apply, val_main_v22_apply, idx_offset]
  rfl

/-- The hidden layer at (a, b, c, n): the logistic function of the first dense layer of LayerNorm of the row. -/
theorem hidden_apply (n : Fin 128) :
    val_main_v34 x0 x1 x2 x3 x4 (ix4 a b c n)
      = logisticRow (dense (layerNorm (fun k => x0 (ix2 (rowOf a b c) k)) (fun d => x1 (ix1 d)) (fun d => x2 (ix1 d)))
          (fun k n => x3 (ix2 n k)) (fun n => x4 (ix1 n))) n := by
  rw [val_main_v34_apply, val_main_v33_apply, val_main_cst_5_apply, val_main_v32_apply, val_main_v31_apply, val_main_cst_4_apply,
    val_main_v30_apply, val_main_v29_apply, val_main_v28_apply, val_main_v25_apply, val_main_v27_apply, val_main_v26_apply, idx_bias1]
  simp only [idx_l1, idx_r1, norm_apply]
  exact logistic_written_out _

/-- The result at (a, b, c, e) is the whole row function of the row, at output column e. -/
theorem out_apply (e : Fin 10) :
    val_main_v38 x0 x1 x2 x3 x4 x5 x6 (ix4 a b c e) = outAt x0 x1 x2 x3 x4 x5 x6 (rowOf a b c) e := by
  rw [val_main_v38_apply, val_main_v35_apply, val_main_v37_apply, val_main_v36_apply, idx_bias2]
  simp only [idx_l2, idx_r2, hidden_apply]
  rfl

/-- The reference's result, as one function of the arguments. -/
theorem result_eq :
    val_main_v38 x0 x1 x2 x3 x4 x5 x6 = result x0 x1 x2 x3 x4 x5 x6 := by
  funext i
  obtain ⟨a, b, c, e, rfl⟩ : ∃ (a : Fin 32) (b : Fin 4) (c : Fin 11) (e : Fin 10), i = ix4 a b c e := ⟨i 0, i 1, i 2, i 3, eq_ix4 i⟩
  exact out_apply x0 x1 x2 x3 x4 x5 x6 a b c e

end Cert.RefRows

end
-- ==== Proof.lean ====
/-
  The kernel against its reference, over the extended reals. Both programs take a 1408 × 256 matrix, a gain and an offset
  of length 256, a 128 × 256 and a 10 × 128 weight matrix with their biases, and send every row x of the matrix through
  the same row function: LayerNorm (subtract the row's mean, multiply by the reciprocal square root of the row's
  variance plus ε, scale and shift), a dense layer to 128 entries, the logistic function, a dense layer to 10 entries.
  The kernel works on the flat matrix, 128 rows at a grid point, and reshapes its 1408 × 10 result to 32 × 4 × 11 × 10
  at the end; the reference reshapes first and works on the four-axis view. Row r of the flat matrix is row (a, b, c) of
  the view with r = (a·4 + b)·11 + c, and every statistic is taken along a row, so both results are the row function of
  row r at ((a, b, c), ·).
  Nothing here needs the inputs to be finite: the divisor 256 and ε are the same f32 words on both sides; a block product
  into a zero accumulator and the host's dot_general are the same sum over the contracted coordinate; a lane sum and the
  host's sum from the word of zero are the same sum; a change of float format changes no entry; and the kernel's logistic
  operation is, at every extended real, the expression 1 / (1 + e^(-z)) the reference writes out.
-/
import proofs.«133840_j73315091742880_1_alg».proof.Defs
import proofs.«133840_j73315091742880_1_alg».proof.Proof.Gen.Kernel
import proofs.«133840_j73315091742880_1_alg».proof.Proof.Gen.Kernel.Skeleton
import proofs.«133840_j73315091742880_1_alg».proof.Proof.Gen.Kernel.Launch
import proofs.«133840_j73315091742880_1_alg».proof.Proof.Gen.Kernel.Points
import proofs.«133840_j73315091742880_1_alg».proof.Proof.Gen.Kernel.Frame
import proofs.«133840_j73315091742880_1_alg».proof.Proof.Gen.KernelIdeal
import proofs.«133840_j73315091742880_1_alg».proof.Proof.Gen.KernelIdeal.Skeleton
import proofs.«133840_j73315091742880_1_alg».proof.Proof.Gen.KernelIdeal.Launch
import proofs.«133840_j73315091742880_1_alg».proof.Proof.Gen.KernelIdeal.Points
import proofs.«133840_j73315091742880_1_alg».proof.Proof.Gen.KernelIdeal.Frame
import proofs.«133840_j73315091742880_1_alg».proof.Proof.Gen.ReferenceIdeal
import proofs.«133840_j73315091742880_1_alg».proof.Proof.Gen.Pre_finite_inputs
import proofs.«133840_j73315091742880_1_alg».proof.Proof.Gen.ReferenceIdeal.Run
import proofs.«133840_j73315091742880_1_alg».proof.Proof.Gen.ReferenceIdeal.Read
import proofs.«133840_j73315091742880_1_alg».proof.Proof.KernelArray
import proofs.«133840_j73315091742880_1_alg».proof.Proof.RefRows
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments, both programs end with the result buffer at the one result
    function of the arguments: the kernel by its blocks and the final reshape, the reference stage by stage. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.RefRows.result_eq, (hagree c).1, (hagree c).2.1, (hagree c).2.2.1,
    (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
